-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x16 : Shape := ⟨2, ![2097152, 16]⟩
abbrev S16x524288x2 : Shape := ⟨3, ![16, 524288, 2]⟩
abbrev S32x64 : Shape := ⟨2, ![32, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S16x524288x2 : S_.BroadcastsInDim S16x524288x2 (![] : Fin 0 → Fin S16x524288x2.rank)
  reducesTo_S16x524288x2_S_d0_1_2 : S16x524288x2.ReducesTo [0, 1, 2] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S64x3 .f32) (main_arg9 : FVec F S3 .f32) (main_v33 : IVec S_ 1) : IVec S_ 1 :=
  let main_v34 : FVec F S64x3 .f32 := Host.absf main_arg8
  let main_cst_12 : FVec F S_ .f32 := constant S_ .f32 0x7F800000#32
  let main_v35 : FVec F S64x3 .f32 := broadcastInDim S64x3 ![] bcast_S_S64x3 main_cst_12
  let main_v36 : IVec S64x3 1 := cmpf .olt main_v34 main_v35
  let main_c_13 : IVec S_ 1 := constantI S_ 1 1#1
  let main_v37 : IVec S_ 1 := (fun x v => Host.reduce IntOp.andi x v reducesTo_S64x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x3 .f32) (main_arg9 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : IVec S2097152x16 32) (main_arg1 : FVec F S16x524288x2 .f32) (main_arg2 : FVec F S32x64 .f32) (main_arg3 : FVec F S64 .f32) (main_arg4 : FVec F S64x64 .f32) (main_arg5 : FVec F S64 .f32) (main_arg6 : FVec F S64x64 .f32) (main_arg7 : FVec F S64 .f32) (main_arg8 : FVec F S64x3 .f32) (main_arg9 : FVec F S3 .f32) : IVec S_ 1 :=
  let main_v0 : FVec F S16x524288x2 .f32 := Host.absf main_arg1
  let main_cst : FVec F S_ .f32 := constant S_ .f32 0x7F800000#32
  let main_v1 : FVec F S16x524288x2 .f32 := broadcastInDim S16x524288x2 ![] bcast_S_S16x524288x2 main_cst
  let main_v2 : IVec S16x524288x2 1 := cmpf .olt main_v0 main_v1
  let main_c : IVec S_ 1 := constantI S_ 1 1#1
  let main_v3 : IVec S_ 1 := (fun x v => Host.reduce IntOp.andi x v reducesTo_S16x524288x2_S_d0_1_2 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S2097152x16 : Shape := ⟨2, ![2097152, 16]⟩
abbrev S16x524288x2 : Shape := ⟨3, ![16, 524288, 2]⟩
abbrev S32x64 : Shape := ⟨2, ![32, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩
abbrev S16x2097152 : Shape := ⟨2, ![16, 2097152]⟩
abbrev S16x2097152x1 : Shape := ⟨3, ![16, 2097152, 1]⟩
abbrev S16x2097152x2 : Shape := ⟨3, ![16, 2097152, 2]⟩
abbrev S2097152x16x2 : Shape := ⟨3, ![2097152, 16, 2]⟩
abbrev S2097152x32 : Shape := ⟨2, ![2097152, 32]⟩
abbrev S2097152x3 : Shape := ⟨2, ![2097152, 3]⟩
abbrev S4096x32 : Shape := ⟨2, ![4096, 32]⟩
abbrev S4096x3 : Shape := ⟨2, ![4096, 3]⟩
abbrev S4096x64 : Shape := ⟨2, ![4096, 64]⟩
abbrev S1x64 : Shape := ⟨2, ![1, 64]⟩
abbrev S1x3 : Shape := ⟨2, ![1, 3]⟩

abbrev nBuf : Space → Nat
  | .hbm => 23
  | .vmem => 12
  | .smem => 0
  | _ => 0

abbrev bufTy : (tb : Table) → Fin (tcTables nBuf tb) → BufTy
  | .hbm, ⟨0, _⟩ => ⟨S2097152x16, .i32⟩
  | .hbm, ⟨1, _⟩ => ⟨S16x524288x2, .f32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x3, .f32⟩
  | .hbm, ⟨9, _⟩ => ⟨S3, .f32⟩
  | .hbm, ⟨10, _⟩ => ⟨S_, .i32⟩
  | .hbm, ⟨11, _⟩ => ⟨S2097152x16, .i32⟩
  | .hbm, ⟨12, _⟩ => ⟨S2097152x16, .i1⟩
  | .hbm, ⟨13, _⟩ => ⟨S_, .i32⟩
  | .hbm, ⟨14, _⟩ => ⟨S2097152x16, .i32⟩
  | .hbm, ⟨15, _⟩ => ⟨S2097152x16, .i32⟩
  | .hbm, ⟨16, _⟩ => ⟨S2097152x16, .i32⟩
  | .hbm, ⟨17, _⟩ => ⟨S16x2097152, .i32⟩
  | .hbm, ⟨18, _⟩ => ⟨S16x2097152x1, .i32⟩
  | .hbm, ⟨19, _⟩ => ⟨S16x2097152x2, .f32⟩
  | .hbm, ⟨20, _⟩ => ⟨S2097152x16x2, .f32⟩
  | .hbm, ⟨21, _⟩ => ⟨S2097152x32, .f32⟩
  | .hbm, ⟨22, _⟩ => ⟨S2097152x3, .f32⟩
  | .local _ .vmem, ⟨0, _⟩ => ⟨S4096x32, .f32⟩
  | .local _ .vmem, ⟨1, _⟩ => ⟨S4096x32, .f32⟩
  | .local _ .vmem, ⟨2, _⟩ => ⟨S32x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x3, .f32⟩
  | .local _ .vmem, ⟨9, _⟩ => ⟨S3, .f32⟩
  | .local _ .vmem, ⟨10, _⟩ => ⟨S4096x3, .f32⟩
  | .local _ .vmem, ⟨11, _⟩ => ⟨S4096x3, .f32⟩
  | _, _ => ⟨S2097152x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S2097152x16 : S_.BroadcastsInDim S2097152x16 (![] : Fin 0 → Fin S2097152x16.rank)
  transposes_S2097152x16_S16x2097152_1_0 : S2097152x16.Transposes [1, 0] S16x2097152
  bcast_S16x2097152_S16x2097152x1_0_1 : S16x2097152.BroadcastsInDim S16x2097152x1 (![0, 1] : Fin 2 → Fin S16x2097152x1.rank)
  transposes_S16x2097152x2_S2097152x16x2_1_0_2 : S16x2097152x2.Transposes [1, 0, 2] S2097152x16x2
  shapeCasts_S2097152x16x2_S2097152x32 : S2097152x16x2.ShapeCasts S2097152x32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S4096x3 : S1x3.Broadcasts S4096x3
  inb_S4096x3_S4096x3_0_0 : ∀ a, (![0, 0] : Fin 2 → Nat) a + S4096x3.size a ≤ S4096x3.size a
  h_S4096x3 : 0 < S4096x3.numel
  gather_S16x524288x2_S16x2097152x1_S16x2097152x2_2_1_0_0_1_2_112_wf : GatherDims.WF S16x524288x2 S16x2097152x1 S16x2097152x2 [2] [1] [0] [1] [0] 2 ![1, 1, 2]
  dot_S4096x32_S32x64_S4096x64_1_0_0_1_n_n_wf : DotDims.WF S4096x32 S32x64 S4096x64 [1] [0] [0] [1] [] []
  dot_S4096x64_S64x64_S4096x64_1_0_0_1_n_n_wf : DotDims.WF S4096x64 S64x64 S4096x64 [1] [0] [0] [1] [] []
  dot_S4096x64_S64x3_S4096x3_1_0_0_1_n_n_wf : DotDims.WF S4096x64 S64x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S2097152x32.size a
  hwx0_0 : ∀ i : grid0.Coords, EltTy.bits .f32 = 32 ∨ (Rect.block (s := S2097152x32) S4096x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x3.size a ≤ S64x3.size a
  hwx0_7 : ∀ i : grid0.Coords, EltTy.bits .f32 = 32 ∨ (Rect.block (s := S64x3) S64x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3.size a ≤ S3.size a
  hwx0_8 : ∀ i : grid0.Coords, EltTy.bits .f32 = 32 ∨ (Rect.block (s := S3) S3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x3.size a ≤ S2097152x3.size a
  hwx0_9 : ∀ i : grid0.Coords, EltTy.bits .f32 = 32 ∨ (Rect.block (s := S2097152x3) S4096x3.size (cc0_transform_9 i) (hinb0_9 i)).WholeWords (EltTy.packing .f32)

variable [Facts₀]

def gather_S16x524288x2_S16x2097152x1_S16x2097152x2_2_1_0_0_1_2_112 : GatherDims S16x524288x2 S16x2097152x1 S16x2097152x2 where
  offsetDims := [2]
  collapsedSliceDims := [1]
  operandBatchingDims := [0]
  startIndicesBatchingDims := [0]
  startIndexMap := [1]
  indexVectorDim := 2
  sliceSizes := ![1, 1, 2]
  wf := gather_S16x524288x2_S16x2097152x1_S16x2097152x2_2_1_0_0_1_2_112_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_v9) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S4096x3.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x16 : Shape := ⟨2, ![2097152, 16]⟩
abbrev S16x524288x2 : Shape := ⟨3, ![16, 524288, 2]⟩
abbrev S32x64 : Shape := ⟨2, ![32, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩
abbrev S16x2097152 : Shape := ⟨2, ![16, 2097152]⟩
abbrev S16x2097152x1 : Shape := ⟨3, ![16, 2097152, 1]⟩
abbrev S16x2097152x2 : Shape := ⟨3, ![16, 2097152, 2]⟩
abbrev S2097152x16x2 : Shape := ⟨3, ![2097152, 16, 2]⟩
abbrev S2097152x32 : Shape := ⟨2, ![2097152, 32]⟩
abbrev S2097152x64 : Shape := ⟨2, ![2097152, 64]⟩
abbrev S1x64 : Shape := ⟨2, ![1, 64]⟩
abbrev S2097152x3 : Shape := ⟨2, ![2097152, 3]⟩
abbrev S1x3 : Shape := ⟨2, ![1, 3]⟩

abbrev nBuf : Space → Nat
  | .hbm => 47
  | .vmem => 0
  | .smem => 0
  | _ => 0

abbrev bufTy : (tb : Table) → Fin (tcTables nBuf tb) → BufTy
  | .hbm, ⟨0, _⟩ => ⟨S2097152x16, .i32⟩
  | .hbm, ⟨1, _⟩ => ⟨S16x524288x2, .f32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x3, .f32⟩
  | .hbm, ⟨9, _⟩ => ⟨S3, .f32⟩
  | .hbm, ⟨10, _⟩ => ⟨S_, .i32⟩
  | .hbm, ⟨11, _⟩ => ⟨S2097152x16, .i32⟩
  | .hbm, ⟨12, _⟩ => ⟨S2097152x16, .i1⟩
  | .hbm, ⟨13, _⟩ => ⟨S_, .i32⟩
  | .hbm, ⟨14, _⟩ => ⟨S2097152x16, .i32⟩
  | .hbm, ⟨15, _⟩ => ⟨S2097152x16, .i32⟩
  | .hbm, ⟨16, _⟩ => ⟨S2097152x16, .i32⟩
  | .hbm, ⟨17, _⟩ => ⟨S16x2097152, .i32⟩
  | .hbm, ⟨18, _⟩ => ⟨S16x2097152x1, .i32⟩
  | .hbm, ⟨19, _⟩ => ⟨S16x2097152x2, .f32⟩
  | .hbm, ⟨20, _⟩ => ⟨S2097152x16x2, .f32⟩
  | .hbm, ⟨21, _⟩ => ⟨S2097152x32, .f32⟩
  | .hbm, ⟨22, _⟩ => ⟨S2097152x64, .f32⟩
  | .hbm, ⟨23, _⟩ => ⟨S1x64, .f32⟩
  | .hbm, ⟨24, _⟩ => ⟨S2097152x64, .f32⟩
  | .hbm, ⟨25, _⟩ => ⟨S2097152x64, .f32⟩
  | .hbm, ⟨26, _⟩ => ⟨S_, .f32⟩
  | .hbm, ⟨27, _⟩ => ⟨S2097152x64, .f32⟩
  | .hbm, ⟨28, _⟩ => ⟨S2097152x64, .f32⟩
  | .hbm, ⟨29, _⟩ => ⟨S2097152x64, .f32⟩
  | .hbm, ⟨30, _⟩ => ⟨S1x64, .f32⟩
  | .hbm, ⟨31, _⟩ => ⟨S2097152x64, .f32⟩
  | .hbm, ⟨32, _⟩ => ⟨S2097152x64, .f32⟩
  | .hbm, ⟨33, _⟩ => ⟨S_, .f32⟩
  | .hbm, ⟨34, _⟩ => ⟨S2097152x64, .f32⟩
  | .hbm, ⟨35, _⟩ => ⟨S2097152x64, .f32⟩
  | .hbm, ⟨36, _⟩ => ⟨S2097152x64, .f32⟩
  | .hbm, ⟨37, _⟩ => ⟨S1x64, .f32⟩
  | .hbm, ⟨38, _⟩ => ⟨S2097152x64, .f32⟩
  | .hbm, ⟨39, _⟩ => ⟨S2097152x64, .f32⟩
  | .hbm, ⟨40, _⟩ => ⟨S_, .f32⟩
  | .hbm, ⟨41, _⟩ => ⟨S2097152x64, .f32⟩
  | .hbm, ⟨42, _⟩ => ⟨S2097152x64, .f32⟩
  | .hbm, ⟨43, _⟩ => ⟨S2097152x3, .f32⟩
  | .hbm, ⟨44, _⟩ => ⟨S1x3, .f32⟩
  | .hbm, ⟨45, _⟩ => ⟨S2097152x3, .f32⟩
  | .hbm, ⟨46, _⟩ => ⟨S2097152x3, .f32⟩
  | _, _ => ⟨S2097152x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_cst : Ref sig .tc := ⟨.hbm, 33, rfl⟩
abbrev main_call1_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call2_cst : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  bcast_S_S2097152x16 : S_.BroadcastsInDim S2097152x16 (![] : Fin 0 → Fin S2097152x16.rank)
  transposes_S2097152x16_S16x2097152_1_0 : S2097152x16.Transposes [1, 0] S16x2097152
  bcast_S16x2097152_S16x2097152x1_0_1 : S16x2097152.BroadcastsInDim S16x2097152x1 (![0, 1] : Fin 2 → Fin S16x2097152x1.rank)
  transposes_S16x2097152x2_S2097152x16x2_1_0_2 : S16x2097152x2.Transposes [1, 0, 2] S2097152x16x2
  shapeCasts_S2097152x16x2_S2097152x32 : S2097152x16x2.ShapeCasts S2097152x32
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  gather_S16x524288x2_S16x2097152x1_S16x2097152x2_2_1_0_0_1_2_112_wf : GatherDims.WF S16x524288x2 S16x2097152x1 S16x2097152x2 [2] [1] [0] [1] [0] 2 ![1, 1, 2]
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def gather_S16x524288x2_S16x2097152x1_S16x2097152x2_2_1_0_0_1_2_112 : GatherDims S16x524288x2 S16x2097152x1 S16x2097152x2 where
  offsetDims := [2]
  collapsedSliceDims := [1]
  operandBatchingDims := [0]
  startIndicesBatchingDims := [0]
  startIndexMap := [1]
  indexVectorDim := 2
  sliceSizes := ![1, 1, 2]
  wf := gather_S16x524288x2_S16x2097152x1_S16x2097152x2_2_1_0_0_1_2_112_wf
def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.LibPlainDot.lean ====
/-
  A matrix product of an [M, K] operand by a [K, N] operand over the one shared axis, read at an entry of the result:
  the sum over the contraction shape's indices is the sum over k < K of (row p of the left, at k) × (column c of the
  right, at k). The contraction shape of such a product has one axis of extent K, so its indices are the numbers
  below K, and the two operand indices at a contraction index k are (p, k) and (k, c).

  Also: a length-N vector laid out as a [1, N] row and repeated down R rows reads, at (p, c), entry c of the vector.
-/
import Idealize.ShloMosaic.PureOps.Ideal.Laws
import Idealize.ShloMosaic.Lib.ValueIdx
import Idealize.ShloMosaic.Lib.Pipeline.Value

noncomputable section

open scoped BigOperators

namespace Cert.PlainDot

open Idealize.ShloMosaic Idealize.ShloMosaic.ValueIdx

/-- The contraction sum of a two-operand product with one contracted axis, re-indexed by the numbers below the
    contracted extent. The four hypotheses say where the product's dimension numbers send an output index and a
    contraction index: the left operand is read at (output row, contraction position), the right operand at
    (contraction position, output column). -/
theorem sum_contr {M K N : Nat} (d : DotDims ⟨2, ![M, K]⟩ ⟨2, ![K, N]⟩ ⟨2, ![M, N]⟩)
    (hrank : d.contr.rank = 1) (hsize : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (q ⟨0, by omega⟩).val)
    (hr1 : ∀ (j : (⟨2, ![M, N]⟩ : Shape).Idx) (q : d.contr.Idx), (d.rhsIdx j q 1).val = (j 1).val)
    (l : (⟨2, ![M, K]⟩ : Shape).Idx → EReal) (r : (⟨2, ![K, N]⟩ : Shape).Idx → EReal) (p : Fin M) (c : Fin N) :
    ∑ q : d.contr.Idx, l (d.lhsIdx (ix2 p c) q) * r (d.rhsIdx (ix2 p c) q) = ∑ k : Fin K, l (ix2 p k) * r (ix2 k c) := by
  rw [← Equiv.sum_comp (contrEquiv1 d K hrank hsize).symm]
  refine Finset.sum_congr rfl fun k _ => ?_
  have hk := contrEquiv1_symm_val d K hrank hsize k
  have el : d.lhsIdx (ix2 p c) ((contrEquiv1 d K hrank hsize).symm k) = ix2 p k := funext fun a => Fin.ext (by
    match a with
    | ⟨0, _⟩ => exact hl0 _ _
    | ⟨1, _⟩ => exact (hl1 _ _).trans hk)
  have er : d.rhsIdx (ix2 p c) ((contrEquiv1 d K hrank hsize).symm k) = ix2 k c := funext fun a => Fin.ext (by
    match a with
    | ⟨0, _⟩ => exact (hr0 _ _).trans hk
    | ⟨1, _⟩ => exact hr1 _ _)
  rw [el, er]

/-- A product accumulated into the zero splat, at an entry: the plain sum of products along row p and column c. -/
theorem matmul_zero_apply {M K N : Nat} {φ₁ φ₂ : FTy} (d : DotDims ⟨2, ![M, K]⟩ ⟨2, ![K, N]⟩ ⟨2, ![M, N]⟩)
    (prec : Option ContractPrecision)
    (hrank : d.contr.rank = 1) (hsize : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (q ⟨0, by omega⟩).val)
    (hr1 : ∀ (j : (⟨2, ![M, N]⟩ : Shape).Idx) (q : d.contr.Idx), (d.rhsIdx j q 1).val = (j 1).val)
    (l : FVec Ideal ⟨2, ![M, K]⟩ φ₁) (r : FVec Ideal ⟨2, ![K, N]⟩ φ₂) (p : Fin M) (c : Fin N) :
    FloatOps.matmul d prec l r (constant ⟨2, ![M, N]⟩ .f32 0x00000000#32) (ix2 p c) = ∑ k : Fin K, l (ix2 p k) * r (ix2 k c) :=
  (Ideal.matmul_constant_zero_apply d prec l r (ix2 p c)).trans (sum_contr d hrank hsize hl0 hl1 hr0 hr1 l r p c)

/-- A vector of N entries cast to one row and broadcast down R rows: entry (p, c) is entry c of the vector. -/
theorem row_bias_apply {α : Type} {R N : Nat} (hN : N ≠ 1) (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (p : Fin R) (c : Fin N) :
    broadcastTo ⟨2, ![R, N]⟩ (shapeCast ⟨2, ![1, N]⟩ b hc) hb (ix2 p c) = b (ix1 c) := by
  refine (broadcastTo_apply _ hb (ix2 p c) (ix2 (⟨0, Nat.one_pos⟩ : Fin 1) c) (fun a => match a with
    | ⟨0, _⟩ => by show 0 = (if (1 : Nat) = 1 then 0 else p.val); rw [if_pos rfl]
    | ⟨1, _⟩ => by show c.val = (if N = 1 then 0 else c.val); rw [if_neg hN])).trans ?_
  exact shapeCast_apply b hc (ix2 (⟨0, Nat.one_pos⟩ : Fin 1) c) (ix1 c)
    (by rw [Shape.rowMajor_val_one, Shape.rowMajor_val_two]; show c.val = 0 * N + c.val; omega)

end Cert.PlainDot

end
-- ==== Proof.KernelDots.lean ====
/-
  The kernel body's three matrix products, each read at an entry (p, c) of its result.
  All three contract the left operand's columns with the right operand's rows and accumulate into zeros, so each
  entry is ∑ k, left (p, k) * right (k, c): the rows of a 4096-row block against a 32×64, a 64×64 and a 64×3 weight.
  For each product's dimension numbers the four coordinate facts (which operand coordinate is the output's row or
  column, which is the contraction position) are computed from the lists, then handed to the general lemma.
-/
import proofs.«110911_j43619687858999_1_alg».proof.KernelIdeal
import proofs.«110911_j43619687858999_1_alg».proof.Proof.Gen.KernelIdeal
import proofs.«110911_j43619687858999_1_alg».proof.Proof.LibPlainDot

noncomputable section

open scoped BigOperators

namespace Cert.KernelIdeal.Dots

open Cert.KernelIdeal Idealize.ShloMosaic Idealize.ShloMosaic.ValueIdx

theorem dot_S4096x32_S32x64_S4096x64_1_0_0_1_n_n_l0 (i : S4096x64.Idx) (q : dot_S4096x32_S32x64_S4096x64_1_0_0_1_n_n.contr.Idx) :
    (dot_S4096x32_S32x64_S4096x64_1_0_0_1_n_n.lhsIdx i q 0).val = (i 0).val := by
  unfold DotDims.lhsIdx
  rw [dif_neg (show ¬(0 : Fin S4096x32.rank) ∈ dot_S4096x32_S32x64_S4096x64_1_0_0_1_n_n.lhsBatch by decide), dif_pos (show (0 : Fin S4096x32.rank) ∈ dot_S4096x32_S32x64_S4096x64_1_0_0_1_n_n.lhsNonContracting by decide)]
  rfl
theorem dot_S4096x32_S32x64_S4096x64_1_0_0_1_n_n_l1 (i : S4096x64.Idx) (q : dot_S4096x32_S32x64_S4096x64_1_0_0_1_n_n.contr.Idx) :
    (dot_S4096x32_S32x64_S4096x64_1_0_0_1_n_n.lhsIdx i q 1).val = (q ⟨0, by decide⟩).val :=
  dot_S4096x32_S32x64_S4096x64_1_0_0_1_n_n.lhsIdx_val_of_single rfl i q
theorem dot_S4096x32_S32x64_S4096x64_1_0_0_1_n_n_r0 (i : S4096x64.Idx) (q : dot_S4096x32_S32x64_S4096x64_1_0_0_1_n_n.contr.Idx) :
    (dot_S4096x32_S32x64_S4096x64_1_0_0_1_n_n.rhsIdx i q 0).val = (q ⟨0, by decide⟩).val :=
  dot_S4096x32_S32x64_S4096x64_1_0_0_1_n_n.rhsIdx_val_of_single rfl i q
theorem dot_S4096x32_S32x64_S4096x64_1_0_0_1_n_n_r1 (i : S4096x64.Idx) (q : dot_S4096x32_S32x64_S4096x64_1_0_0_1_n_n.contr.Idx) :
    (dot_S4096x32_S32x64_S4096x64_1_0_0_1_n_n.rhsIdx i q 1).val = (i 1).val := by
  unfold DotDims.rhsIdx
  rw [dif_neg (show ¬(1 : Fin S32x64.rank) ∈ dot_S4096x32_S32x64_S4096x64_1_0_0_1_n_n.rhsBatch by decide), dif_pos (show (1 : Fin S32x64.rank) ∈ dot_S4096x32_S32x64_S4096x64_1_0_0_1_n_n.rhsNonContracting by decide)]
  rfl

theorem dot_S4096x64_S64x64_S4096x64_1_0_0_1_n_n_l0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem dot_S4096x64_S64x64_S4096x64_1_0_0_1_n_n_l1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem dot_S4096x64_S64x64_S4096x64_1_0_0_1_n_n_r0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem dot_S4096x64_S64x64_S4096x64_1_0_0_1_n_n_r1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

theorem dot_S4096x64_S64x3_S4096x3_1_0_0_1_n_n_l0 (i : S4096x3.Idx) (q : dot_S4096x64_S64x3_S4096x3_1_0_0_1_n_n.contr.Idx) :
    (dot_S4096x64_S64x3_S4096x3_1_0_0_1_n_n.lhsIdx i q 0).val = (i 0).val := by
  unfold DotDims.lhsIdx
  rw [dif_neg (show ¬(0 : Fin S4096x64.rank) ∈ dot_S4096x64_S64x3_S4096x3_1_0_0_1_n_n.lhsBatch by decide), dif_pos (show (0 : Fin S4096x64.rank) ∈ dot_S4096x64_S64x3_S4096x3_1_0_0_1_n_n.lhsNonContracting by decide)]
  rfl
theorem dot_S4096x64_S64x3_S4096x3_1_0_0_1_n_n_l1 (i : S4096x3.Idx) (q : dot_S4096x64_S64x3_S4096x3_1_0_0_1_n_n.contr.Idx) :
    (dot_S4096x64_S64x3_S4096x3_1_0_0_1_n_n.lhsIdx i q 1).val = (q ⟨0, by decide⟩).val :=
  dot_S4096x64_S64x3_S4096x3_1_0_0_1_n_n.lhsIdx_val_of_single rfl i q
theorem dot_S4096x64_S64x3_S4096x3_1_0_0_1_n_n_r0 (i : S4096x3.Idx) (q : dot_S4096x64_S64x3_S4096x3_1_0_0_1_n_n.contr.Idx) :
    (dot_S4096x64_S64x3_S4096x3_1_0_0_1_n_n.rhsIdx i q 0).val = (q ⟨0, by decide⟩).val :=
  dot_S4096x64_S64x3_S4096x3_1_0_0_1_n_n.rhsIdx_val_of_single rfl i q
theorem dot_S4096x64_S64x3_S4096x3_1_0_0_1_n_n_r1 (i : S4096x3.Idx) (q : dot_S4096x64_S64x3_S4096x3_1_0_0_1_n_n.contr.Idx) :
    (dot_S4096x64_S64x3_S4096x3_1_0_0_1_n_n.rhsIdx i q 1).val = (i 1).val := by
  unfold DotDims.rhsIdx
  rw [dif_neg (show ¬(1 : Fin S64x3.rank) ∈ dot_S4096x64_S64x3_S4096x3_1_0_0_1_n_n.rhsBatch by decide), dif_pos (show (1 : Fin S64x3.rank) ∈ dot_S4096x64_S64x3_S4096x3_1_0_0_1_n_n.rhsNonContracting by decide)]
  rfl

/-- Block rows (32 features) against the 32×64 weight. -/
theorem matmul_32_64 {φ₁ φ₂ : FTy} (l : FVec Ideal S4096x32 φ₁) (r : FVec Ideal S32x64 φ₂) (p : Fin 4096) (c : Fin 64) :
    FloatOps.matmul dot_S4096x32_S32x64_S4096x64_1_0_0_1_n_n none l r (constant S4096x64 .f32 0x00000000#32) (ix2 p c) = ∑ k : Fin 32, l (ix2 p k) * r (ix2 k c) :=
  Cert.PlainDot.matmul_zero_apply dot_S4096x32_S32x64_S4096x64_1_0_0_1_n_n none rfl rfl dot_S4096x32_S32x64_S4096x64_1_0_0_1_n_n_l0 dot_S4096x32_S32x64_S4096x64_1_0_0_1_n_n_l1 dot_S4096x32_S32x64_S4096x64_1_0_0_1_n_n_r0 dot_S4096x32_S32x64_S4096x64_1_0_0_1_n_n_r1 l r p c

/-- Hidden rows (64 entries) against a 64×64 weight. -/
theorem matmul_64_64 {φ₁ φ₂ : FTy} (l : FVec Ideal S4096x64 φ₁) (r : FVec Ideal S64x64 φ₂) (p : Fin 4096) (c : Fin 64) :
    FloatOps.matmul dot_S4096x64_S64x64_S4096x64_1_0_0_1_n_n none l r (constant S4096x64 .f32 0x00000000#32) (ix2 p c) = ∑ k : Fin 64, l (ix2 p k) * r (ix2 k c) :=
  Cert.PlainDot.matmul_zero_apply dot_S4096x64_S64x64_S4096x64_1_0_0_1_n_n none rfl rfl dot_S4096x64_S64x64_S4096x64_1_0_0_1_n_n_l0 dot_S4096x64_S64x64_S4096x64_1_0_0_1_n_n_l1 dot_S4096x64_S64x64_S4096x64_1_0_0_1_n_n_r0 dot_S4096x64_S64x64_S4096x64_1_0_0_1_n_n_r1 l r p c

/-- Hidden rows (64 entries) against the 64×3 weight. -/
theorem matmul_64_3 {φ₁ φ₂ : FTy} (l : FVec Ideal S4096x64 φ₁) (r : FVec Ideal S64x3 φ₂) (p : Fin 4096) (c : Fin 3) :
    FloatOps.matmul dot_S4096x64_S64x3_S4096x3_1_0_0_1_n_n none l r (constant S4096x3 .f32 0x00000000#32) (ix2 p c) = ∑ k : Fin 64, l (ix2 p k) * r (ix2 k c) :=
  Cert.PlainDot.matmul_zero_apply dot_S4096x64_S64x3_S4096x3_1_0_0_1_n_n none rfl rfl dot_S4096x64_S64x3_S4096x3_1_0_0_1_n_n_l0 dot_S4096x64_S64x3_S4096x3_1_0_0_1_n_n_l1 dot_S4096x64_S64x3_S4096x3_1_0_0_1_n_n_r0 dot_S4096x64_S64x3_S4096x3_1_0_0_1_n_n_r1 l r p c

end Cert.KernelIdeal.Dots

end
-- ==== Proof.MlpSpec.lean ====
/-
  The function both programs compute, on the extended reals.

  A row x of 32 embedding features goes through four affine layers, the first three followed by max(·, 0):
      h1 = relu (x  · W1 + b1)      (64 entries)
      h2 = relu (h1 · W2 + b2)      (64 entries)
      h3 = relu (h2 · W3 + b3)      (64 entries)
      y  =       h3 · W4 + b4       (3 entries)
  where (v · W) c = ∑ k, v k * W (k, c). The result array's entry (r, c) is y c for x = row r of the embedding array.
  Sums of extended reals are taken in the commutative monoid of extended reals, so no order of summation is recorded.
-/
import Idealize.ShloMosaic.PureOps.Ideal
import Idealize.ShloMosaic.Lib.ValueIdx

noncomputable section

open scoped BigOperators

namespace Cert.Mlp

open Idealize.ShloMosaic Idealize.ShloMosaic.ValueIdx

/-- max(z, 0); the zero is kept as the f32 zero word both programs print. -/
def relu (z : EReal) : EReal := max z (Ideal.ofBits .f32 0x00000000#32)

/-- One affine layer applied to a row: entry c is (∑ k, x k * W (k, c)) + b c. -/
def dense {K C : Nat} (W : (⟨2, ![K, C]⟩ : Shape).Idx → EReal) (b : (⟨1, ![C]⟩ : Shape).Idx → EReal)
    (x : Fin K → EReal) (c : Fin C) : EReal :=
  (∑ k : Fin K, x k * W (ix2 k c)) + b (ix1 c)

/-- The four layers applied to one row of 32 features. -/
def row (W1 : (⟨2, ![32, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 64]⟩ : Shape).Idx → EReal) (b3 : (⟨1, ![64]⟩ : Shape).Idx → EReal)
    (W4 : (⟨2, ![64, 3]⟩ : Shape).Idx → EReal) (b4 : (⟨1, ![3]⟩ : Shape).Idx → EReal)
    (x : Fin 32 → EReal) : Fin 3 → EReal :=
  dense W4 b4 fun k3 => relu (dense W3 b3 (fun k2 => relu (dense W2 b2 (fun k1 => relu (dense W1 b1 x k1)) k2)) k3)

/-- The whole result array: entry (r, c) is the four layers applied to row r of the embedding array X, at c. -/
def array (X : (⟨2, ![2097152, 32]⟩ : Shape).Idx → EReal)
    (W1 : (⟨2, ![32, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 64]⟩ : Shape).Idx → EReal) (b3 : (⟨1, ![64]⟩ : Shape).Idx → EReal)
    (W4 : (⟨2, ![64, 3]⟩ : Shape).Idx → EReal) (b4 : (⟨1, ![3]⟩ : Shape).Idx → EReal) :
    (⟨2, ![2097152, 3]⟩ : Shape).Idx → EReal :=
  fun i => row W1 b1 W2 b2 W3 b3 W4 b4 (fun k => X (ix2 (i 0) k)) (i 1)

end Cert.Mlp

end
-- ==== Proof.KernelRow.lean ====
/-
  One row of the kernel body's result.

  The body loads a block of 4096 embedding rows and the eight weight and bias arrays, and stores
      ((relu (relu (relu (x·W1 + b1) · W2 + b2) · W3 + b3)) · W4) + b4
  where every product is a matrix product into zeros, every bias is laid out as one row and repeated down the block,
  and the narrowing of a product's operands to a shorter float format is the identity on extended reals. Read at an
  entry (p, c) of the block, each layer only sees row p of the layer before, so the stored block's entry (p, c) is the
  four-layer function of row p of the loaded block, at c.
-/
import proofs.«110911_j43619687858999_1_alg».proof.Proof.Gen.KernelIdeal.Value
import proofs.«110911_j43619687858999_1_alg».proof.Proof.KernelDots
import proofs.«110911_j43619687858999_1_alg».proof.Proof.MlpSpec
import Idealize.ShloMosaic.Lib.Pipeline.Value

noncomputable section

open scoped BigOperators

namespace Cert.KernelIdeal.Row

open Cert.KernelIdeal Cert.KernelIdeal.Gen Idealize.ShloMosaic Idealize.ShloMosaic.ValueIdx

/-- The first layer as the body computes it: the block's rows against W1, plus b1 on every row, clamped below at 0. -/
def firstLayer (P0 : Vec Ideal S4096x32 .f32) (W : Vec Ideal S32x64 .f32) (b : Vec Ideal S64 .f32) : FVec Ideal S4096x64 .f32 :=
  maximumf
    (addf
      (matmul dot_S4096x32_S32x64_S4096x64_1_0_0_1_n_n none (truncf .bf16 (shapeCast S4096x32 P0 shapeCasts_S4096x32_S4096x32) bitsLt_bf16_f32)
        (truncf .bf16 W bitsLt_bf16_f32) (constant S4096x64 .f32 0x00000000#32))
      (broadcastTo S4096x64 (shapeCast S1x64 b shapeCasts_S64_S1x64) broadcasts_S1x64_S4096x64))
    (broadcast S4096x64 (Scalar.ofBits .f32 0x00000000#32))

/-- A hidden layer as the body computes it: the previous activations against a 64×64 weight, plus the bias, clamped. -/
def hiddenLayer (a : FVec Ideal S4096x64 .f32) (W : Vec Ideal S64x64 .f32) (b : Vec Ideal S64 .f32) : FVec Ideal S4096x64 .f32 :=
  maximumf
    (addf
      (matmul dot_S4096x64_S64x64_S4096x64_1_0_0_1_n_n none (truncf .bf16 a bitsLt_bf16_f32)
        (truncf .bf16 W bitsLt_bf16_f32) (constant S4096x64 .f32 0x00000000#32))
      (broadcastTo S4096x64 (shapeCast S1x64 b shapeCasts_S64_S1x64) broadcasts_S1x64_S4096x64))
    (broadcast S4096x64 (Scalar.ofBits .f32 0x00000000#32))

/-- The last product as the body computes it: the third activations against the 64×3 weight (the bias comes after). -/
def lastProduct (a : FVec Ideal S4096x64 .f32) (W : Vec Ideal S64x3 .f32) : FVec Ideal S4096x3 .f32 :=
  matmul dot_S4096x64_S64x3_S4096x3_1_0_0_1_n_n none (truncf .bf16 a bitsLt_bf16_f32) (truncf .bf16 W bitsLt_bf16_f32) (constant S4096x3 .f32 0x00000000#32)

/-- The body's product chain is these layers composed. -/
theorem pay2_eq (P0 : Vec Ideal S4096x32 .f32) (P1 : Vec Ideal S32x64 .f32) (P2 : Vec Ideal S64 .f32) (P3 : Vec Ideal S64x64 .f32)
    (P4 : Vec Ideal S64 .f32) (P5 : Vec Ideal S64x64 .f32) (P6 : Vec Ideal S64 .f32) (P7 : Vec Ideal S64x3 .f32) :
    k0_pay2 (F := Ideal) P0 P1 P2 P3 P4 P5 P6 P7
      = lastProduct (hiddenLayer (hiddenLayer (firstLayer P0 P1 P2) P3 P4) P5 P6) P7 := rfl

/-- A 64-entry bias, made a row and repeated down the block, at (p, c) is its entry c. -/
theorem bias64 (b : Vec Ideal S64 .f32) (p : Fin 4096) (c : Fin 64) :
    broadcastTo S4096x64 (shapeCast S1x64 b shapeCasts_S64_S1x64) broadcasts_S1x64_S4096x64 (ix2 p c) = b (ix1 c) :=
  Cert.PlainDot.row_bias_apply (by decide) b shapeCasts_S64_S1x64 broadcasts_S1x64_S4096x64 p c

/-- First layer at (p, c): the affine layer of row p of the block, clamped. -/
theorem firstLayer_apply (P0 : Vec Ideal S4096x32 .f32) (W : Vec Ideal S32x64 .f32) (b : Vec Ideal S64 .f32) (p : Fin 4096) (c : Fin 64) :
    firstLayer P0 W b (ix2 p c) = Cert.Mlp.relu (Cert.Mlp.dense W b (fun k => P0 (ix2 p k)) c) := by
  unfold firstLayer Cert.Mlp.relu Cert.Mlp.dense
  refine congrArg₂ max (congrArg₂ (· + ·) ?_ (bias64 b p c)) rfl
  rw [shapeCast_self]
  exact Dots.matmul_32_64 _ _ p c

/-- Hidden layer at (p, c): the affine layer of row p of the previous activations, clamped. -/
theorem hiddenLayer_apply (a : FVec Ideal S4096x64 .f32) (W : Vec Ideal S64x64 .f32) (b : Vec Ideal S64 .f32) (p : Fin 4096) (c : Fin 64) :
    hiddenLayer a W b (ix2 p c) = Cert.Mlp.relu (Cert.Mlp.dense W b (fun k => a (ix2 p k)) c) := by
  unfold hiddenLayer Cert.Mlp.relu Cert.Mlp.dense
  refine congrArg₂ max (congrArg₂ (· + ·) ?_ (bias64 b p c)) rfl
  exact Dots.matmul_64_64 _ _ p c

/-- Last product at (p, c): row p of the third activations against column c of W4. -/
theorem lastProduct_apply (a : FVec Ideal S4096x64 .f32) (W : Vec Ideal S64x3 .f32) (p : Fin 4096) (c : Fin 3) :
    lastProduct a W (ix2 p c) = ∑ k : Fin 64, a (ix2 p k) * W (ix2 k c) :=
  Dots.matmul_64_3 _ _ p c

/-- THE STORED BLOCK AT (p, c): the four layers applied to row p of the loaded block of embeddings, at c. -/
theorem stored_apply (P0 : Vec Ideal S4096x32 .f32) (P1 : Vec Ideal S32x64 .f32) (P2 : Vec Ideal S64 .f32) (P3 : Vec Ideal S64x64 .f32)
    (P4 : Vec Ideal S64 .f32) (P5 : Vec Ideal S64x64 .f32) (P6 : Vec Ideal S64 .f32) (P7 : Vec Ideal S64x3 .f32) (P8 : Vec Ideal S3 .f32)
    (p : Fin 4096) (c : Fin 3) :
    Cert.KernelIdeal.Value.E9 (F := Ideal) P0 P1 P2 P3 P4 P5 P6 P7 P8 (ix2 p c)
      = Cert.Mlp.row P1 P2 P3 P4 P5 P6 P7 P8 (fun k => P0 (ix2 p k)) c := by
  have h0 : Cert.KernelIdeal.Value.ix9_0 (ix2 p c) = ix2 p c := by
    funext a; match a with | ⟨0, _⟩ => rfl | ⟨1, _⟩ => rfl
  have h1 : Cert.KernelIdeal.Value.ix9_1 (ix2 p c) = ix1 c := by
    funext a; match a with | ⟨0, _⟩ => rfl
  show k0_pay2 (F := Ideal) P0 P1 P2 P3 P4 P5 P6 P7 (Cert.KernelIdeal.Value.ix9_0 (ix2 p c)) + P8 (Cert.KernelIdeal.Value.ix9_1 (ix2 p c)) = _
  rw [h0, h1, pay2_eq, lastProduct_apply]
  unfold Cert.Mlp.row
  show _ = (∑ k3 : Fin 64, _ * P7 (ix2 k3 c)) + P8 (ix1 c)
  refine congrArg (· + P8 (ix1 c)) (Finset.sum_congr rfl fun k3 _ => congrArg (· * P7 (ix2 k3 c)) ?_)
  rw [hiddenLayer_apply]
  refine congrArg Cert.Mlp.relu (congrArg (fun x => Cert.Mlp.dense P5 P6 x k3) (funext fun k2 => ?_))
  rw [hiddenLayer_apply]
  refine congrArg Cert.Mlp.relu (congrArg (fun x => Cert.Mlp.dense P3 P4 x k2) (funext fun k1 => ?_))
  exact firstLayer_apply P0 P1 P2 p k1

end Cert.KernelIdeal.Row

end
-- ==== Proof.KernelArray.lean ====
/-
  The kernel's result array after the run.

  The grid has 512 points; point t stages rows 4096·t … 4096·t + 4095 of the embedding array and all of every weight
  and bias array, and writes back rows 4096·t … 4096·t + 4095 of the result. So what point t writes back is the block
  at t of ONE whole-array function: entry (r, c) is the four layers applied to row r of the embeddings, at c. The 512
  blocks tile the 2097152 rows (row r lies in block r / 4096), so the array ends holding that function everywhere.
  The embedding array itself is what the host operations before the call leave: the per-head table lookup, kept whole.
-/
import proofs.«110911_j43619687858999_1_alg».proof.Proof.Gen.KernelIdeal.Value
import proofs.«110911_j43619687858999_1_alg».proof.Proof.KernelRow
import Idealize.ShloMosaic.Lib.StableHlo.Run
import Idealize.ShloMosaic.Lib.Pipeline.Value

noncomputable section

open scoped BigOperators

namespace Cert.KernelIdeal.Array

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The embedding lookup, as the host operations before the call compute it -/

/-- Where each (head, point) looks in its head's table: the point's index for that head, wrapped once if negative,
    transposed to head-major and given a trailing unit axis. -/
def lookupAt (idx : (⟨S2097152x16, .i32⟩ : BufTy).Contents (Elt Ideal)) : (⟨S16x2097152x1, .i32⟩ : BufTy).Contents (Elt Ideal) :=
  broadcastInDim S16x2097152x1 ![0, 1] bcast_S16x2097152_S16x2097152x1_0_1
    (transpose S16x2097152 [1, 0]
      (select (cmpi .slt idx (broadcastInDim S2097152x16 ![] bcast_S_S2097152x16 (constantI S_ 32 0#32)))
        (addi idx (broadcastInDim S2097152x16 ![] bcast_S_S2097152x16 (constantI S_ 32 524288#32))) idx)
      transposes_S2097152x16_S16x2097152_1_0)

/-- The embedding array: per head the two features of the looked-up table row, heads concatenated along each point's row. -/
def lookup (idx : (⟨S2097152x16, .i32⟩ : BufTy).Contents (Elt Ideal)) (tables : (⟨S16x524288x2, .f32⟩ : BufTy).Contents (Elt Ideal)) :
    (⟨S2097152x32, .f32⟩ : BufTy).Contents (Elt Ideal) :=
  shapeCast _
    (transpose S2097152x16x2 [1, 0, 2]
      (Host.gather gather_S16x524288x2_S16x2097152x1_S16x2097152x2_2_1_0_0_1_2_112 tables (lookupAt idx))
      transposes_S16x2097152x2_S2097152x16x2_1_0_2)
    shapeCasts_S2097152x16x2_S2097152x32

/-- The region finds the embedding array at the lookup of the launch's index and table arrays. -/
theorem V_lookup (c : Dev nD) :
    (V m c main_v9 : S2097152x32.Idx → EReal) = lookup (m ((c : Thread nD τ).loc main_arg0)) (m ((c : Thread nD τ).loc main_arg1)) := by
  dsimp only [Gen.V, Gen.hostOps0]
  after_results
  rfl

/-! ## The windows' blocks at a point -/

/-- The printed index maps, decided over the 512 points: the embedding and result windows move down one block per
    point; every weight and bias window stays at block zero. -/
theorem idx_facts : ∀ t : Fin cfg0.N, win0_9.index t (0 : Fin 2) = t.val
    ∧ win0_9.index t (1 : Fin 2) = 0
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0 :=
  (by decide +kernel : ∀ t : Fin grid0.N, _)

/-- Window 1's block is all of its array at every point: its block index is always zero. -/
theorem whole1 (c : Dev nD) (t : Fin cfg0.N) : (iblk m c 1 t : Vec Ideal S32x64 .f32) = (V m c main_arg2 : Vec Ideal S32x64 .f32) := by
  obtain ⟨e0, e1, e2, e3, e4, e5, e6, e7, e8, e9, e10, e11, e12, e13, e14, e15⟩ := idx_facts t
  funext j
  show V m c main_arg2 (((cfg0.win 1).blk t).view.emb j) = V m c main_arg2 j
  congr 1
  funext a; apply Fin.ext
  match a with
    | ⟨0, _⟩ => show win0_1.index t (0 : Fin 2) * 32 + 1 * (j 0).val = (j 0).val; rw [e4]; omega
    | ⟨1, _⟩ => show win0_1.index t (1 : Fin 2) * 64 + 1 * (j 1).val = (j 1).val; rw [e5]; omega

/-- Window 2's block is all of its array at every point: its block index is always zero. -/
theorem whole2 (c : Dev nD) (t : Fin cfg0.N) : (iblk m c 2 t : Vec Ideal S64 .f32) = (V m c main_arg3 : Vec Ideal S64 .f32) := by
  obtain ⟨e0, e1, e2, e3, e4, e5, e6, e7, e8, e9, e10, e11, e12, e13, e14, e15⟩ := idx_facts t
  funext j
  show V m c main_arg3 (((cfg0.win 2).blk t).view.emb j) = V m c main_arg3 j
  congr 1
  funext a; apply Fin.ext
  match a with
    | ⟨0, _⟩ => show win0_2.index t (0 : Fin 1) * 64 + 1 * (j 0).val = (j 0).val; rw [e6]; omega

/-- Window 3's block is all of its array at every point: its block index is always zero. -/
theorem whole3 (c : Dev nD) (t : Fin cfg0.N) : (iblk m c 3 t : Vec Ideal S64x64 .f32) = (V m c main_arg4 : Vec Ideal S64x64 .f32) := by
  obtain ⟨e0, e1, e2, e3, e4, e5, e6, e7, e8, e9, e10, e11, e12, e13, e14, e15⟩ := idx_facts t
  funext j
  show V m c main_arg4 (((cfg0.win 3).blk t).view.emb j) = V m c main_arg4 j
  congr 1
  funext a; apply Fin.ext
  match a with
    | ⟨0, _⟩ => show win0_3.index t (0 : Fin 2) * 64 + 1 * (j 0).val = (j 0).val; rw [e7]; omega
    | ⟨1, _⟩ => show win0_3.index t (1 : Fin 2) * 64 + 1 * (j 1).val = (j 1).val; rw [e8]; omega

/-- Window 4's block is all of its array at every point: its block index is always zero. -/
theorem whole4 (c : Dev nD) (t : Fin cfg0.N) : (iblk m c 4 t : Vec Ideal S64 .f32) = (V m c main_arg5 : Vec Ideal S64 .f32) := by
  obtain ⟨e0, e1, e2, e3, e4, e5, e6, e7, e8, e9, e10, e11, e12, e13, e14, e15⟩ := idx_facts t
  funext j
  show V m c main_arg5 (((cfg0.win 4).blk t).view.emb j) = V m c main_arg5 j
  congr 1
  funext a; apply Fin.ext
  match a with
    | ⟨0, _⟩ => show win0_4.index t (0 : Fin 1) * 64 + 1 * (j 0).val = (j 0).val; rw [e9]; omega

/-- Window 5's block is all of its array at every point: its block index is always zero. -/
theorem whole5 (c : Dev nD) (t : Fin cfg0.N) : (iblk m c 5 t : Vec Ideal S64x64 .f32) = (V m c main_arg6 : Vec Ideal S64x64 .f32) := by
  obtain ⟨e0, e1, e2, e3, e4, e5, e6, e7, e8, e9, e10, e11, e12, e13, e14, e15⟩ := idx_facts t
  funext j
  show V m c main_arg6 (((cfg0.win 5).blk t).view.emb j) = V m c main_arg6 j
  congr 1
  funext a; apply Fin.ext
  match a with
    | ⟨0, _⟩ => show win0_5.index t (0 : Fin 2) * 64 + 1 * (j 0).val = (j 0).val; rw [e10]; omega
    | ⟨1, _⟩ => show win0_5.index t (1 : Fin 2) * 64 + 1 * (j 1).val = (j 1).val; rw [e11]; omega

/-- Window 6's block is all of its array at every point: its block index is always zero. -/
theorem whole6 (c : Dev nD) (t : Fin cfg0.N) : (iblk m c 6 t : Vec Ideal S64 .f32) = (V m c main_arg7 : Vec Ideal S64 .f32) := by
  obtain ⟨e0, e1, e2, e3, e4, e5, e6, e7, e8, e9, e10, e11, e12, e13, e14, e15⟩ := idx_facts t
  funext j
  show V m c main_arg7 (((cfg0.win 6).blk t).view.emb j) = V m c main_arg7 j
  congr 1
  funext a; apply Fin.ext
  match a with
    | ⟨0, _⟩ => show win0_6.index t (0 : Fin 1) * 64 + 1 * (j 0).val = (j 0).val; rw [e12]; omega

/-- Window 7's block is all of its array at every point: its block index is always zero. -/
theorem whole7 (c : Dev nD) (t : Fin cfg0.N) : (iblk m c 7 t : Vec Ideal S64x3 .f32) = (V m c main_arg8 : Vec Ideal S64x3 .f32) := by
  obtain ⟨e0, e1, e2, e3, e4, e5, e6, e7, e8, e9, e10, e11, e12, e13, e14, e15⟩ := idx_facts t
  funext j
  show V m c main_arg8 (((cfg0.win 7).blk t).view.emb j) = V m c main_arg8 j
  congr 1
  funext a; apply Fin.ext
  match a with
    | ⟨0, _⟩ => show win0_7.index t (0 : Fin 2) * 64 + 1 * (j 0).val = (j 0).val; rw [e13]; omega
    | ⟨1, _⟩ => show win0_7.index t (1 : Fin 2) * 3 + 1 * (j 1).val = (j 1).val; rw [e14]; omega

/-- Window 8's block is all of its array at every point: its block index is always zero. -/
theorem whole8 (c : Dev nD) (t : Fin cfg0.N) : (iblk m c 8 t : Vec Ideal S3 .f32) = (V m c main_arg9 : Vec Ideal S3 .f32) := by
  obtain ⟨e0, e1, e2, e3, e4, e5, e6, e7, e8, e9, e10, e11, e12, e13, e14, e15⟩ := idx_facts t
  funext j
  show V m c main_arg9 (((cfg0.win 8).blk t).view.emb j) = V m c main_arg9 j
  congr 1
  funext a; apply Fin.ext
  match a with
    | ⟨0, _⟩ => show win0_8.index t (0 : Fin 1) * 3 + 1 * (j 0).val = (j 0).val; rw [e15]; omega

/-- Row p of the embedding window's block at point t is row 4096·t + p of the embedding array. -/
theorem embBlock_apply (c : Dev nD) (t : Fin cfg0.N) (p : Fin 4096) (k : Fin 32) (r : Fin 2097152) (hr : r.val = t.val * 4096 + p.val) :
    (iblk m c 0 t : Vec Ideal S4096x32 .f32) (ix2 p k) = (V m c main_v9 : Vec Ideal S2097152x32 .f32) (ix2 r k) := by
  obtain ⟨e0, e1, e2, e3, e4, e5, e6, e7, e8, e9, e10, e11, e12, e13, e14, e15⟩ := idx_facts t
  show V m c main_v9 (((cfg0.win 0).blk t).view.emb (ix2 p k)) = V m c main_v9 (ix2 r k)
  congr 1
  funext a; apply Fin.ext
  match a with
    | ⟨0, _⟩ => show win0_0.index t (0 : Fin 2) * 4096 + 1 * p.val = r.val; rw [e2, hr]; omega
    | ⟨1, _⟩ => show win0_0.index t (1 : Fin 2) * 32 + 1 * k.val = k.val; rw [e3]; omega

/-- Entry (p, c) of the result window's block at point t is entry (4096·t + p, c) of the result array. -/
theorem outBlock_emb (t : Fin cfg0.N) (p : Fin 4096) (q : Fin 3) (r : Fin 2097152) (hr : r.val = t.val * 4096 + p.val) :
    ((cfg0.win 9).blk t).view.emb (ix2 p q) = (ix2 r q : S2097152x3.Idx) := by
  obtain ⟨e0, e1, e2, e3, e4, e5, e6, e7, e8, e9, e10, e11, e12, e13, e14, e15⟩ := idx_facts t
  funext a; apply Fin.ext
  match a with
    | ⟨0, _⟩ => show win0_9.index t (0 : Fin 2) * 4096 + 1 * p.val = r.val; rw [e0, hr]; omega
    | ⟨1, _⟩ => show win0_9.index t (1 : Fin 2) * 3 + 1 * q.val = q.val; rw [e1]; omega

/-! ## What a point writes back, and the array after the run -/

/-- The result array as ONE function of the arrays the region finds. -/
abbrev result (c : Dev nD) : S2097152x3.Idx → EReal :=
  Cert.Mlp.array (V m c main_v9) (V m c main_arg2) (V m c main_arg3) (V m c main_arg4) (V m c main_arg5) (V m c main_arg6) (V m c main_arg7) (V m c main_arg8) (V m c main_arg9)

/-- What the body leaves in the result's staging buffer, for any loaded blocks: entry (p, c) is the four layers applied
    to row p of the embedding block, at c. (The body's one store covers the buffer; each load reads a whole block.) -/
theorem stored_block (x0 : Vec Ideal S4096x32 .f32) (x1 : Vec Ideal S32x64 .f32) (x2 : Vec Ideal S64 .f32) (x3 : Vec Ideal S64x64 .f32)
    (x4 : Vec Ideal S64 .f32) (x5 : Vec Ideal S64x64 .f32) (x6 : Vec Ideal S64 .f32) (x7 : Vec Ideal S64x3 .f32) (x8 : Vec Ideal S3 .f32)
    (p : Fin 4096) (q : Fin 3) :
    out0_9 x0 x1 x2 x3 x4 x5 x6 x7 x8 (ix2 p q) = Cert.Mlp.row x1 x2 x3 x4 x5 x6 x7 x8 (fun k => x0 (ix2 p k)) q := by
  unfold out0_9
  refine (Cert.KernelIdeal.Value.canon9_eq (F := Ideal) (View.ld x0 r0_0) (View.ld x1 r0_1) (View.ld x2 r0_2) (View.ld x3 r0_3) (View.ld x4 r0_2) (View.ld x5 r0_3) (View.ld x6 r0_2) (View.ld x7 r0_4) (View.ld x8 r0_5) (ix2 p q)).trans ?_
  simp only [View.ld_unit_zero (S := S4096x32) hz2, View.ld_unit_zero (S := S32x64) hz2, View.ld_unit_zero (S := S64) hz1,
    View.ld_unit_zero (S := S64x64) hz2, View.ld_unit_zero (S := S64x3) hz2, View.ld_unit_zero (S := S3) hz1]
  exact Row.stored_apply x0 x1 x2 x3 x4 x5 x6 x7 x8 p q

/-- The four layers of a row depend only on the weights, the biases and the row. -/
theorem row_congr {W1 W1' : (⟨2, ![32, 64]⟩ : Shape).Idx → EReal} {b1 b1' : (⟨1, ![64]⟩ : Shape).Idx → EReal}
    {W2 W2' : (⟨2, ![64, 64]⟩ : Shape).Idx → EReal} {b2 b2' : (⟨1, ![64]⟩ : Shape).Idx → EReal}
    {W3 W3' : (⟨2, ![64, 64]⟩ : Shape).Idx → EReal} {b3 b3' : (⟨1, ![64]⟩ : Shape).Idx → EReal}
    {W4 W4' : (⟨2, ![64, 3]⟩ : Shape).Idx → EReal} {b4 b4' : (⟨1, ![3]⟩ : Shape).Idx → EReal}
    {x x' : Fin 32 → EReal} (q : Fin 3)
    (h1 : W1 = W1') (h2 : b1 = b1') (h3 : W2 = W2') (h4 : b2 = b2') (h5 : W3 = W3') (h6 : b3 = b3') (h7 : W4 = W4') (h8 : b4 = b4')
    (hx : x = x') :
    Cert.Mlp.row W1 b1 W2 b2 W3 b3 W4 b4 x q = Cert.Mlp.row W1' b1' W2' b2' W3' b3' W4' b4' x' q := by
  subst h1 h2 h3 h4 h5 h6 h7 h8 hx; rfl

/-- What the body leaves in the result's staging buffer at point t, entry by entry: the whole-array function read at
    the entry's place in the array. -/
theorem point_eq (c : Dev nD) (t : Fin cfg0.N) (j : S4096x3.Idx) :
    out0_9 (iblk m c 0 t) (iblk m c 1 t) (iblk m c 2 t) (iblk m c 3 t) (iblk m c 4 t) (iblk m c 5 t) (iblk m c 6 t) (iblk m c 7 t) (iblk m c 8 t) j
      = result m c (((cfg0.win 9).blk t).view.emb j) := by
  obtain ⟨p, q, rfl⟩ : ∃ (p : Fin 4096) (q : Fin 3), j = ix2 p q := ⟨j 0, j 1, eq_ix2 j⟩
  have hN : cfg0.N = 512 := N_0
  have hr : t.val * 4096 + p.val < 2097152 := by have := t.isLt; have := p.isLt; omega
  refine Eq.trans ?_ (congrArg (result m c) (outBlock_emb t p q ⟨t.val * 4096 + p.val, hr⟩ rfl).symm)
  show _ = Cert.Mlp.row (V m c main_arg2) (V m c main_arg3) (V m c main_arg4) (V m c main_arg5) (V m c main_arg6) (V m c main_arg7) (V m c main_arg8) (V m c main_arg9) (fun k => V m c main_v9 (ix2 ⟨t.val * 4096 + p.val, hr⟩ k)) q
  refine (stored_block (iblk m c 0 t) (iblk m c 1 t) (iblk m c 2 t) (iblk m c 3 t) (iblk m c 4 t) (iblk m c 5 t) (iblk m c 6 t) (iblk m c 7 t) (iblk m c 8 t) p q).trans ?_
  exact row_congr q (whole1 m c t) (whole2 m c t) (whole3 m c t) (whole4 m c t) (whole5 m c t) (whole6 m c t) (whole7 m c t) (whole8 m c t)
    (funext fun k => embBlock_apply m c t p k ⟨t.val * 4096 + p.val, hr⟩ rfl)

/-- WHAT POINT t WRITES BACK is block t of the whole-array function. -/
theorem flushed_eq (c : Dev nD) (t : Fin cfg0.N) :
    (dats m 0 c).flushed 9 t = ((cfg0.win 9).blk t).view.read (Elt Ideal) (result m c) := by
  rw [Cert.KernelIdeal.Value.flushed9]
  funext j
  exact point_eq m c t j

/-- An index of the array is in point t's block iff each coordinate is in the block's range on its axis. -/
theorem mem_blk (t : Fin cfg0.N) (i : S2097152x3.Idx) :
    i ∈ ((cfg0.win 9).blk t).view.set ↔ ∀ a : Fin 2, win0_9.index t a * S4096x3.size a ≤ (i a).val ∧ (i a).val < win0_9.index t a * S4096x3.size a + S4096x3.size a := by
  show i ∈ ((View.whole main_v10).slice (win0_9.rect t)).set ↔ _
  rw [View.set_slice_whole, Rect.mem_set_unit]
  exact Iff.rfl

/-- Every entry of the result array is in some point's block: row r is in block r / 4096. -/
theorem cover (i : S2097152x3.Idx) : ∃ t : Fin cfg0.N, (cfg0.win 9).flush t = true ∧ i ∈ ((cfg0.win 9).blk t).view.set := by
  have hi0 : (i 0).val < 2097152 := (i 0).isLt
  have hi1 : (i 1).val < 3 := (i 1).isLt
  have hN : cfg0.N = 512 := N_0
  have ht : (i 0).val / 4096 < cfg0.N := by rw [hN]; omega
  obtain ⟨e0, e1, e2, e3, e4, e5, e6, e7, e8, e9, e10, e11, e12, e13, e14, e15⟩ := idx_facts ⟨(i 0).val / 4096, ht⟩
  refine ⟨⟨(i 0).val / 4096, ht⟩, flush0_9 _, ?_⟩
  rw [mem_blk]
  intro a
  match a with
    | ⟨0, _⟩ =>
      show win0_9.index ⟨(i 0).val / 4096, ht⟩ (0 : Fin 2) * 4096 ≤ (i 0).val ∧ (i 0).val < win0_9.index ⟨(i 0).val / 4096, ht⟩ (0 : Fin 2) * 4096 + 4096
      rw [e0]; show (i 0).val / 4096 * 4096 ≤ (i 0).val ∧ (i 0).val < (i 0).val / 4096 * 4096 + 4096; omega
    | ⟨1, _⟩ =>
      show win0_9.index ⟨(i 0).val / 4096, ht⟩ (1 : Fin 2) * 3 ≤ (i 1).val ∧ (i 1).val < win0_9.index ⟨(i 0).val / 4096, ht⟩ (1 : Fin 2) * 3 + 3
      rw [e1]; omega

/-- THE RESULT ARRAY after the run is the whole-array function of the arrays the region finds. -/
theorem final (c : Dev nD) : (dats m 0 c).arrAt 9 cfg0.N = result m c :=
  (dats m 0 c).arrAt_eq_of_cover 9 (result m c) (fun t _ => flushed_eq m c t) (cover)

/-- … which are the launch's arrays, the embeddings their lookup. -/
theorem result_launch (c : Dev nD) :
    result m c = Cert.Mlp.array (lookup (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold result
  rw [V_lookup m c, V_main_arg2 m c, V_main_arg3 m c, V_main_arg4 m c, V_main_arg5 m c, V_main_arg6 m c, V_main_arg7 m c, V_main_arg8 m c, V_main_arg9 m c]

/-- The run, read: the result array at the four layers of each row of the looked-up embeddings, the arguments unchanged. -/
theorem run : θ_run defs (onTc (τ := τ) (main (F := Ideal))) ⟨m, fun _ => 0, ρ⟩ fun r => ∀ c : Dev nD,
      r.2.mem ((c : Thread nD τ).loc main_v10) = Cert.Mlp.array (lookup (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans ((final m c).trans (result_launch m c)), (h c).2⟩)
    (Cert.KernelIdeal.Value.run_blocks m ρ)

end Cert.KernelIdeal.Array

end
-- ==== Proof.RefRow.lean ====
/-
  The reference program's result, entry by entry.

  After the embedding lookup (kept whole here: both programs compute it by the same host operations) the reference
  applies, to the whole [2097152, 32] array at once, three times "matrix product, add the bias row, max with 0" and
  then one more product and bias. A product's entry (r, c) only reads row r of its left operand, and the bias and the
  clamp act entry by entry, so the result's entry (r, c) is the four-layer function of row r of the embeddings, at c.
-/
import proofs.«110911_j43619687858999_1_alg».proof.Proof.Gen.ReferenceIdeal.Read
import proofs.«110911_j43619687858999_1_alg».proof.Proof.MlpSpec

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S2097152x16, .i32⟩ : BufTy).Contents (Elt Ideal)) (x1 : (⟨S16x524288x2, .f32⟩ : BufTy).Contents (Elt Ideal))
  (x2 : (⟨S32x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x3, .f32⟩ : BufTy).Contents (Elt Ideal)) (x9 : (⟨S3, .f32⟩ : BufTy).Contents (Elt Ideal))

/-! The operand indices of the four products and of the four bias rows, at an entry (r, c). -/

theorem l10 (r : Fin 2097152) (c : Fin 64) (k : Fin 32) : lidx_main_v10 (ix2 r c) k = ix2 r k :=
  funext fun a => match a with | ⟨0, _⟩ => rfl | ⟨1, _⟩ => rfl
theorem r10 (r : Fin 2097152) (c : Fin 64) (k : Fin 32) : ridx_main_v10 (ix2 r c) k = ix2 k c :=
  funext fun a => match a with | ⟨0, _⟩ => rfl | ⟨1, _⟩ => rfl
theorem l15 (r : Fin 2097152) (c : Fin 64) (k : Fin 64) : lidx_main_v15 (ix2 r c) k = ix2 r k :=
  funext fun a => match a with | ⟨0, _⟩ => rfl | ⟨1, _⟩ => rfl
theorem r15 (r : Fin 2097152) (c : Fin 64) (k : Fin 64) : ridx_main_v15 (ix2 r c) k = ix2 k c :=
  funext fun a => match a with | ⟨0, _⟩ => rfl | ⟨1, _⟩ => rfl
theorem l20 (r : Fin 2097152) (c : Fin 64) (k : Fin 64) : lidx_main_v20 (ix2 r c) k = ix2 r k :=
  funext fun a => match a with | ⟨0, _⟩ => rfl | ⟨1, _⟩ => rfl
theorem r20 (r : Fin 2097152) (c : Fin 64) (k : Fin 64) : ridx_main_v20 (ix2 r c) k = ix2 k c :=
  funext fun a => match a with | ⟨0, _⟩ => rfl | ⟨1, _⟩ => rfl
theorem l25 (r : Fin 2097152) (c : Fin 3) (k : Fin 64) : lidx_main_v25 (ix2 r c) k = ix2 r k :=
  funext fun a => match a with | ⟨0, _⟩ => rfl | ⟨1, _⟩ => rfl
theorem r25 (r : Fin 2097152) (c : Fin 3) (k : Fin 64) : ridx_main_v25 (ix2 r c) k = ix2 k c :=
  funext fun a => match a with | ⟨0, _⟩ => rfl | ⟨1, _⟩ => rfl
theorem b12 (r : Fin 2097152) (c : Fin 64) : idx_main_v11 (idx_main_v12 (ix2 r c)) = ix1 c :=
  funext fun a => match a with | ⟨0, _⟩ => rfl
theorem b17 (r : Fin 2097152) (c : Fin 64) : idx_main_v16 (idx_main_v17 (ix2 r c)) = ix1 c :=
  funext fun a => match a with | ⟨0, _⟩ => rfl
theorem b22 (r : Fin 2097152) (c : Fin 64) : idx_main_v21 (idx_main_v22 (ix2 r c)) = ix1 c :=
  funext fun a => match a with | ⟨0, _⟩ => rfl
theorem b27 (r : Fin 2097152) (c : Fin 3) : idx_main_v26 (idx_main_v27 (ix2 r c)) = ix1 c :=
  funext fun a => match a with | ⟨0, _⟩ => rfl

/-- First activations at (r, c): the affine layer of row r of the embeddings, clamped. -/
theorem act1_apply (r : Fin 2097152) (c : Fin 64) :
    val_main_v14 (F := Ideal) x0 x1 x2 x3 (ix2 r c)
      = Cert.Mlp.relu (Cert.Mlp.dense x2 x3 (fun k => val_main_v9 (F := Ideal) x0 x1 (ix2 r k)) c) := by
  rw [val_main_v14_apply, val_main_v13_apply, val_main_v10_apply, val_main_v12_apply, val_main_v11_apply,
    val_main_call0_v0_apply, val_main_call0_cst_apply]
  simp only [l10, r10, b12]
  rfl

/-- Second activations at (r, c): the affine layer of row r of the first, clamped. -/
theorem act2_apply (r : Fin 2097152) (c : Fin 64) :
    val_main_v19 (F := Ideal) x0 x1 x2 x3 x4 x5 (ix2 r c)
      = Cert.Mlp.relu (Cert.Mlp.dense x4 x5 (fun k => val_main_v14 (F := Ideal) x0 x1 x2 x3 (ix2 r k)) c) := by
  rw [val_main_v19_apply, val_main_v18_apply, val_main_v15_apply, val_main_v17_apply, val_main_v16_apply,
    val_main_call1_v0_apply, val_main_call1_cst_apply]
  simp only [l15, r15, b17]
  rfl

/-- Third activations at (r, c): the affine layer of row r of the second, clamped. -/
theorem act3_apply (r : Fin 2097152) (c : Fin 64) :
    val_main_v24 (F := Ideal) x0 x1 x2 x3 x4 x5 x6 x7 (ix2 r c)
      = Cert.Mlp.relu (Cert.Mlp.dense x6 x7 (fun k => val_main_v19 (F := Ideal) x0 x1 x2 x3 x4 x5 (ix2 r k)) c) := by
  rw [val_main_v24_apply, val_main_v23_apply, val_main_v20_apply, val_main_v22_apply, val_main_v21_apply,
    val_main_call2_v0_apply, val_main_call2_cst_apply]
  simp only [l20, r20, b22]
  rfl

/-- The result at (r, c): the last affine layer of row r of the third activations. -/
theorem out_apply (r : Fin 2097152) (c : Fin 3) :
    val_main_v28 (F := Ideal) x0 x1 x2 x3 x4 x5 x6 x7 x8 x9 (ix2 r c)
      = Cert.Mlp.dense x8 x9 (fun k => val_main_v24 (F := Ideal) x0 x1 x2 x3 x4 x5 x6 x7 (ix2 r k)) c := by
  rw [val_main_v28_apply, val_main_v25_apply, val_main_v27_apply, val_main_v26_apply]
  simp only [l25, r25, b27]
  rfl

/-- THE REFERENCE'S RESULT is the four-layer function of each row of its embedding array. -/
theorem result_eq :
    val_main_v28 (F := Ideal) x0 x1 x2 x3 x4 x5 x6 x7 x8 x9
      = Cert.Mlp.array (val_main_v9 (F := Ideal) x0 x1) x2 x3 x4 x5 x6 x7 x8 x9 := by
  funext i
  obtain ⟨r, c, rfl⟩ : ∃ (r : Fin 2097152) (c : Fin 3), i = ix2 r c := ⟨i 0, i 1, eq_ix2 i⟩
  rw [out_apply]
  unfold Cert.Mlp.array Cert.Mlp.row
  refine congrArg (fun x => Cert.Mlp.dense x8 x9 x c) (funext fun k3 => ?_)
  rw [act3_apply]
  refine congrArg Cert.Mlp.relu (congrArg (fun x => Cert.Mlp.dense x6 x7 x k3) (funext fun k2 => ?_))
  rw [act2_apply]
  refine congrArg Cert.Mlp.relu (congrArg (fun x => Cert.Mlp.dense x4 x5 x k2) (funext fun k1 => ?_))
  exact act1_apply x0 x1 x2 x3 r k1

end Cert.ReferenceIdeal.RefValue

end
-- ==== Proof.lean ====
/-
  Both programs compute, for each of the 2097152 sampled points, a 32-feature embedding row (16 table lookups of two
  features each, by the same host operations in both) and push it through a four-layer perceptron
      y = relu (relu (relu (x·W1 + b1) · W2 + b2) · W3 + b3) · W4 + b4.
  The kernel does the perceptron 4096 rows at a time with its products' operands narrowed to a shorter float format;
  the reference does it on the whole array at once. On the extended reals narrowing is the identity, a product into
  zeros is the plain sum of products, and each layer's entry (r, c) reads only row r of the layer before; so both
  result arrays are the same function, entry by entry, of the argument arrays (Proof/MlpSpec.lean):
    * the kernel's block entry is that function of the block's row (Proof/KernelRow.lean, over Proof/KernelDots.lean and
      Proof/LibPlainDot.lean), the blocks tile the array (Proof/KernelArray.lean);
    * the reference's entry is that function of the embedding array's row (Proof/RefRow.lean).
  No law beyond reading sums and maxima entry by entry is used, so the finiteness of the inputs is never opened.
  The three frames are the generated ones (the reference's is its run with the result dropped); nothing was rewritten
  when the kernel was idealized, so the preservation claim is trivial.
-/
import proofs.«110911_j43619687858999_1_alg».proof.Defs
import proofs.«110911_j43619687858999_1_alg».proof.Proof.Gen.Kernel
import proofs.«110911_j43619687858999_1_alg».proof.Proof.Gen.Kernel.Skeleton
import proofs.«110911_j43619687858999_1_alg».proof.Proof.Gen.Kernel.Launch
import proofs.«110911_j43619687858999_1_alg».proof.Proof.Gen.Kernel.Points
import proofs.«110911_j43619687858999_1_alg».proof.Proof.Gen.Kernel.Frame
import proofs.«110911_j43619687858999_1_alg».proof.Proof.Gen.KernelIdeal
import proofs.«110911_j43619687858999_1_alg».proof.Proof.Gen.KernelIdeal.Skeleton
import proofs.«110911_j43619687858999_1_alg».proof.Proof.Gen.KernelIdeal.Launch
import proofs.«110911_j43619687858999_1_alg».proof.Proof.Gen.KernelIdeal.Points
import proofs.«110911_j43619687858999_1_alg».proof.Proof.Gen.KernelIdeal.Frame
import proofs.«110911_j43619687858999_1_alg».proof.Proof.Gen.ReferenceIdeal
import proofs.«110911_j43619687858999_1_alg».proof.Proof.Gen.Pre_finite_inputs
import proofs.«110911_j43619687858999_1_alg».proof.Proof.Gen.KernelIdeal.Value
import proofs.«110911_j43619687858999_1_alg».proof.Proof.Gen.ReferenceIdeal.Run
import proofs.«110911_j43619687858999_1_alg».proof.Proof.Gen.ReferenceIdeal.Read
import proofs.«110911_j43619687858999_1_alg».proof.Proof.KernelArray
import proofs.«110911_j43619687858999_1_alg».proof.Proof.RefRow
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The two programs' embedding lookups are the same host operations of the index and table arrays. -/
theorem lookup_eq (x0 : (⟨Cert.KernelIdeal.S2097152x16, .i32⟩ : BufTy).Contents (Elt Ideal))
    (x1 : (⟨Cert.KernelIdeal.S16x524288x2, .f32⟩ : BufTy).Contents (Elt Ideal)) :
    Cert.ReferenceIdeal.Read.val_main_v9 (F := Ideal) x0 x1 = Cert.KernelIdeal.Array.lookup x0 x1 := rfl

/-- From memories agreeing on the arguments both result arrays are the four layers of each row of the same looked-up
    embeddings: the kernel's by its blocks, the reference's by its operations read entry by entry. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))).trans ?_
  refine (Cert.ReferenceIdeal.RefValue.result_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))).trans ?_
  obtain ⟨h0, h1, h2, h3, h4, h5, h6, h7, h8, h9⟩ := hagree c
  rw [h0, h1, h2, h3, h4, h5, h6, h7, h8, h9, lookup_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
